-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S10000x256 .f32) (main_arg1 : FVec F S10000x10000 .f32) (main_arg2 : FVec F S256x256 .f32) (main_arg3 : FVec F S256x256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S2000x256 : Shape := ⟨2, ![2000, 256]⟩
abbrev S400x10000 : Shape := ⟨2, ![400, 10000]⟩
abbrev S400x256 : Shape := ⟨2, ![400, 256]⟩

abbrev nBuf : Space → Nat
  | .hbm => 7
  | .vmem => 16
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256x256, .f32⟩
  | .hbm, ⟨4, _⟩ => ⟨S10000x256, .bf16⟩
  | .hbm, ⟨5, _⟩ => ⟨S10000x256, .bf16⟩
  | .hbm, ⟨6, _⟩ => ⟨S10000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .bf16⟩
  | .local _ .vmem, ⟨4, _⟩ => ⟨S2000x256, .bf16⟩
  | .local _ .vmem, ⟨5, _⟩ => ⟨S400x10000, .f32⟩
  | .local _ .vmem, ⟨6, _⟩ => ⟨S400x10000, .f32⟩
  | .local _ .vmem, ⟨7, _⟩ => ⟨S10000x256, .bf16⟩
  | .local _ .vmem, ⟨8, _⟩ => ⟨S256x256, .f32⟩
  | .local _ .vmem, ⟨9, _⟩ => ⟨S400x256, .bf16⟩
  | .local _ .vmem, ⟨10, _⟩ => ⟨S400x256, .bf16⟩
  | .local _ .vmem, ⟨11, _⟩ => ⟨S400x10000, .f32⟩
  | .local _ .vmem, ⟨12, _⟩ => ⟨S400x10000, .f32⟩
  | .local _ .vmem, ⟨13, _⟩ => ⟨S10000x256, .bf16⟩
  | .local _ .vmem, ⟨14, _⟩ => ⟨S400x256, .f32⟩
  | .local _ .vmem, ⟨15, _⟩ => ⟨S400x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S2000x256_S2000x256_0_0 : ∀ a, (![0, 0] : Fin 2 → Nat) a + S2000x256.size a ≤ S2000x256.size a
  h_S2000x256 : 0 < S2000x256.numel
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  packedbf16_S2000x256_S2000x256_0_0 : (Rect.unit (s := S2000x256) ![0, 0] S2000x256.size inb_S2000x256_S2000x256_0_0).PackedRows (EltTy.packing .bf16)
  inb_S400x10000_S400x10000_0_0 : ∀ a, (![0, 0] : Fin 2 → Nat) a + S400x10000.size a ≤ S400x10000.size a
  h_S400x10000 : 0 < S400x10000.numel
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S400x256_S400x256_0_0 : ∀ a, (![0, 0] : Fin 2 → Nat) a + S400x256.size a ≤ S400x256.size a
  h_S400x256 : 0 < S400x256.numel
  packedbf16_S400x256_S400x256_0_0 : (Rect.unit (s := S400x256) ![0, 0] S400x256.size inb_S400x256_S400x256_0_0).PackedRows (EltTy.packing .bf16)
  dot_S2000x256_S256x256_S2000x256_1_0_0_1_n_n_wf : DotDims.WF S2000x256 S256x256 S2000x256 [1] [0] [0] [1] [] []
  dot_S400x10000_S10000x256_S400x256_1_0_0_1_n_n_wf : DotDims.WF S400x10000 S10000x256 S400x256 [1] [0] [0] [1] [] []
  dot_S400x256_S256x256_S400x256_1_0_0_1_n_n_wf : DotDims.WF S400x256 S256x256 S400x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S10000x256.size a
  hwx0_0 : ∀ i : grid0.Coords, EltTy.bits .f32 = 32 ∨ (Rect.block (s := S10000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S10000x256.size a
  hwx0_2 : ∀ i : grid0.Coords, EltTy.bits .bf16 = 32 ∨ (Rect.block (s := S10000x256) S2000x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .bf16 = 32 ∨ (Rect.block (s := S10000x256) S10000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x256.size a ≤ S10000x256.size a
  hwx1_3 : ∀ i : grid1.Coords, EltTy.bits .bf16 = 32 ∨ (Rect.block (s := S10000x256) S400x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x256.size a ≤ S10000x256.size a
  hwx2_1 : ∀ i : grid2.Coords, EltTy.bits .bf16 = 32 ∨ (Rect.block (s := S10000x256) S10000x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x256.size a ≤ S10000x256.size a
  hwx2_2 : ∀ i : grid2.Coords, EltTy.bits .f32 = 32 ∨ (Rect.block (s := S10000x256) S400x256.size (cc2_transform_2 i) (hinb2_2 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S400x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S10000x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S400x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256x256, .f32⟩
  | .hbm, ⟨4, _⟩ => ⟨S10000x256, .f32⟩
  | .hbm, ⟨5, _⟩ => ⟨S10000x256, .f32⟩
  | .hbm, ⟨6, _⟩ => ⟨S_, .f32⟩
  | .hbm, ⟨7, _⟩ => ⟨S10000x256, .f32⟩
  | .hbm, ⟨8, _⟩ => ⟨S10000x256, .f32⟩
  | .hbm, ⟨9, _⟩ => ⟨S10000x256, .f32⟩
  | .hbm, ⟨10, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩

abbrev nD : Nat := 1
abbrev τ : Topo := Topo.v7x

variable {F : FTy → Type} [FloatOps F]

class Facts₀ : Prop where
  bcast_S_S10000x256 : S_.BroadcastsInDim S10000x256 (![] : Fin 0 → Fin S10000x256.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.LibPlainMatmul.lean ====
/-
  A plain matrix product read at an index, at the ideal instance.

  A contraction whose dimension numbers are those of an ordinary product of an [M, K] array with a [K, N] array
  (the left operand contracts its axis 1, the right its axis 0, no batch axes) is, at the exact extended-real
  values, the textbook sum: entry (p, q) of the result is the sum over k of left (p, k) times right (k, q).
  This holds for the matrix unit's product into a zero accumulator and for the host's `dot_general` alike,
  whatever the extents, the operand formats, the precision attribute or the schedule key. The two functions
  `mm` and `relu` below are the vocabulary in which a value proof can state both programs' results; the last
  lemma says that a product of a block of rows is the same block of rows of the whole product.
-/
import Idealize.ShloMosaic.Lib.ValueIdx
import Idealize.ShloMosaic.PureOps.Ideal.Laws

noncomputable section

namespace PlainMatmul

open Idealize.ShloMosaic Idealize.ShloMosaic.ValueIdx

variable {M K N : Nat}

/-- The row coordinate of a rank-2 index, typed by the first extent itself. -/
abbrev row {n0 n1 : Nat} (i : (⟨2, ![n0, n1]⟩ : Shape).Idx) : Fin n0 := ⟨(i 0).val, (i 0).isLt⟩
/-- The column coordinate of a rank-2 index, typed by the second extent itself. -/
abbrev col {n0 n1 : Nat} (i : (⟨2, ![n0, n1]⟩ : Shape).Idx) : Fin n1 := ⟨(i 1).val, (i 1).isLt⟩

/-- The matrix product over the extended reals: entry `i` is the sum over `k` of `l (row i, k) · r (k, col i)`. -/
def mm (l : (⟨2, ![M, K]⟩ : Shape).Idx → EReal) (r : (⟨2, ![K, N]⟩ : Shape).Idx → EReal) :
    (⟨2, ![M, N]⟩ : Shape).Idx → EReal :=
  fun i => ∑ k : Fin K, l (ix2 (row i) k) * r (ix2 k (col i))

/-- The rectifier over the extended reals: the larger of an entry and zero. -/
def relu {s : Shape} (h : s.Idx → EReal) : s.Idx → EReal := fun i => max (h i) 0

/-- The dimension numbers of an ordinary product: the left operand's columns against the right operand's rows. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank_contr (h : IsPlain d) : d.contr.rank = 1 := by rw [d.rank_contr, h.lc]; rfl

theorem IsPlain.size_contr (h : IsPlain d) : d.contr.size ⟨0, by rw [h.rank_contr]; exact Nat.one_pos⟩ = K := by
  rw [d.size_contr 0 (by rw [h.lc]; exact Nat.one_pos)]
  simp only [h.lc, List.getElem_cons_zero]
  rfl

private theorem val_congr {n : Nat} {sz : Fin n → Nat} (i : (a : Fin n) → Fin (sz a)) :
    ∀ (p q : Nat) (hp : p < n) (hq : q < n), p = q → (i ⟨p, hp⟩).val = (i ⟨q, hq⟩).val :=
  fun p q hp hq e => by subst e; rfl

/-- The left operand is read at the result's row … -/
theorem IsPlain.lhs_row (h : IsPlain d) (i : (⟨2, ![M, N]⟩ : Shape).Idx) (q : d.contr.Idx) :
    (d.lhsIdx i q 0).val = (i 0).val := by
  unfold DotDims.lhsIdx
  rw [dif_neg (by rw [h.lb]; exact List.not_mem_nil), dif_pos (by rw [h.ln]; exact List.mem_singleton.mpr rfl)]
  simp only [Fin.val_cast]
  exact val_congr i _ _ _ _ (by simp [h.lb, h.ln])

/-- … and at the contraction position; -/
theorem IsPlain.lhs_col (h : IsPlain d) (i : (⟨2, ![M, N]⟩ : Shape).Idx) (q : d.contr.Idx) :
    (d.lhsIdx i q 1).val = (q ⟨0, by rw [h.rank_contr]; exact Nat.one_pos⟩).val :=
  d.lhsIdx_val_of_single h.lc i q

/-- the right operand at the contraction position … -/
theorem IsPlain.rhs_row (h : IsPlain d) (i : (⟨2, ![M, N]⟩ : Shape).Idx) (q : d.contr.Idx) :
    (d.rhsIdx i q 0).val = (q ⟨0, by rw [h.rank_contr]; exact Nat.one_pos⟩).val :=
  d.rhsIdx_val_of_single h.rc i q

/-- … and at the result's column. -/
theorem IsPlain.rhs_col (h : IsPlain d) (i : (⟨2, ![M, N]⟩ : Shape).Idx) (q : d.contr.Idx) :
    (d.rhsIdx i q 1).val = (i 1).val := by
  unfold DotDims.rhsIdx
  rw [dif_neg (by rw [h.rb]; exact List.not_mem_nil), dif_pos (by rw [h.rn]; exact List.mem_singleton.mpr rfl)]
  simp only [Fin.val_cast]
  exact val_congr i _ _ _ _ (by simp [h.lb, h.ln, h.rn])

/-- The contraction's sum of products, re-indexed by the one contracted coordinate, is `mm`. -/
theorem IsPlain.sum_eq_mm (h : IsPlain d) (l : (⟨2, ![M, K]⟩ : Shape).Idx → EReal) (r : (⟨2, ![K, N]⟩ : Shape).Idx → EReal)
    (i : (⟨2, ![M, N]⟩ : Shape).Idx) :
    ∑ q : d.contr.Idx, l (d.lhsIdx i q) * r (d.rhsIdx i q) = mm l r i := by
  unfold mm
  rw [← Equiv.sum_comp (contrEquiv1 d K h.rank_contr h.size_contr).symm]
  refine Finset.sum_congr rfl fun k _ => ?_
  have hk := contrEquiv1_symm_val d K h.rank_contr h.size_contr k
  have el : d.lhsIdx i ((contrEquiv1 d K h.rank_contr h.size_contr).symm k) = ix2 (row i) k := funext fun a => Fin.ext (by
    match a with
    | ⟨0, _⟩ => exact h.lhs_row _ _
    | ⟨1, _⟩ => exact (h.lhs_col _ _).trans hk)
  have er : d.rhsIdx i ((contrEquiv1 d K h.rank_contr h.size_contr).symm k) = ix2 k (col i) := funext fun a => Fin.ext (by
    match a with
    | ⟨0, _⟩ => exact (h.rhs_row _ _).trans hk
    | ⟨1, _⟩ => exact h.rhs_col _ _)
  rw [el, er]

/-- The matrix unit's product into the zero accumulator is `mm` of its operands. -/
theorem IsPlain.matmul_zero (h : IsPlain d) {φ₁ φ₂ : FTy} (prec : Option ContractPrecision)
    (l : FVec Ideal (⟨2, ![M, K]⟩ : Shape) φ₁) (r : FVec Ideal (⟨2, ![K, N]⟩ : Shape) φ₂) :
    FloatOps.matmul d prec l r (constant (F := Ideal) (⟨2, ![M, N]⟩ : Shape) .f32 0x00000000#32) = mm l r :=
  funext fun i => (Ideal.matmul_constant_zero_apply d prec l r i).trans (h.sum_eq_mm l r i)

/-- The host's `dot_general` is `mm` of its operands. -/
theorem IsPlain.dotGeneral (h : IsPlain d) {φ₁ φ₂ : FTy} (prec : Option ContractPrecision) (sched : HostSchedule)
    (l : FVec Ideal (⟨2, ![M, K]⟩ : Shape) φ₁) (r : FVec Ideal (⟨2, ![K, N]⟩ : Shape) φ₂) :
    FloatOps.dotGeneral d prec sched l r = mm l r :=
  funext fun i => (Ideal.dotGeneral_apply d prec sched l r i).trans (h.sum_eq_mm l r i)

/-- ROWS OF A PRODUCT. If `lb` is a block of rows of `l` (row `p` of the block is row `f p` of `l`), the product of
    the block with `r` is the same block of rows of the whole product. -/
theorem mm_rows {M' : Nat} (l : (⟨2, ![M, K]⟩ : Shape).Idx → EReal) (r : (⟨2, ![K, N]⟩ : Shape).Idx → EReal)
    (lb : (⟨2, ![M', K]⟩ : Shape).Idx → EReal) (f : Fin M' → Fin M)
    (hl : ∀ (p : Fin M') (k : Fin K), lb (ix2 p k) = l (ix2 (f p) k))
    (j : (⟨2, ![M', N]⟩ : Shape).Idx) (i : (⟨2, ![M, N]⟩ : Shape).Idx)
    (h0 : (i 0).val = (f (row j)).val) (h1 : (i 1).val = (j 1).val) :
    mm lb r j = mm l r i := by
  unfold mm
  refine Finset.sum_congr rfl fun k _ => ?_
  rw [hl (row j) k]
  have e0 : f (row j) = row i := Fin.ext h0.symm
  have e1 : col j = col i := Fin.ext h1.symm
  rw [e0, e1]

end PlainMatmul

end
-- ==== Proof.Region0.lean ====
/-
  Region 0 (the feature transform): what the array `main_v0` holds after the region, for any contents `V` the
  region is entered from. Each of the five grid points takes 2000 rows of `x`, multiplies them by the whole of
  `W1` and writes the 2000 rows of the result; a product of a block of rows is that block of rows of the product,
  and the five blocks tile the 10000 rows, so the array ends holding the matrix product of the two arguments.
-/
import proofs.«181876_g15195594293516_cont_week2b_250_2_alg».proof.Proof.Gen.KernelIdeal.Frame
import proofs.«181876_g15195594293516_cont_week2b_250_2_alg».proof.Proof.LibPlainMatmul
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx PlainMatmul

variable (V : (c : Dev nD) → (b : Ref sig .tc) → Buf (Elt Ideal) ((c : Thread nD τ).loc b))

theorem hz : (![0, 0] : Fin 2 → Nat) = fun _ => 0 := funext fun a => by fin_cases a <;> rfl

/-- The body's stored value is the product of its two loaded blocks (the change of format is the identity on the
    extended reals, and the accumulator is zero). -/
theorem pay_eq (x0 : Vec Ideal S2000x256 .f32) (x1 : Vec Ideal S256x256 .f32) :
    k0_pay1 (F := Ideal) x0 x1 = mm x0 x1 := by
  have hd : IsPlain dot_S2000x256_S256x256_S2000x256_1_0_0_1_n_n := ⟨rfl, rfl, rfl, rfl, rfl, rfl⟩
  unfold k0_pay1
  dsimp only
  exact hd.matmul_zero (φ₁ := .f32) (φ₂ := .f32) (some .fp32) x0 x1

/-- The printed index maps over the five points: `x`'s and the result's row block is the point, everything else block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of point `t`'s block is row `2000 t + p` of the array. -/
def rowOf (t : Fin cfg0.N) (p : Fin 2000) : Fin 10000 :=
  ⟨t.val * 2000 + p.val, by have h1 := t.isLt; have h2 : cfg0.N = 5 := N_0; have h3 := p.isLt; omega⟩

/-- `x`'s block at point `t` is its rows `2000 t …`. -/
theorem xblk (c : Dev nD) (t : Fin cfg0.N) (p : Fin 2000) (k : Fin 256) :
    (iblk0 V c 0 t : S2000x256.Idx → EReal) (ix2 p k) = (V c main_arg0 : S10000x256.Idx → EReal) (ix2 (rowOf t p) k) := by
  obtain ⟨e0, e1, -, -, -, -⟩ := idx_facts t
  show (V c main_arg0 : S10000x256.Idx → EReal) (((cfg0.win 0).blk t).view.emb (ix2 p k)) = _
  congr 1
  funext a; apply Fin.ext
  match a with
  | ⟨0, _⟩ => show win0_0.index t (0 : Fin 2) * 2000 + 1 * p.val = t.val * 2000 + p.val; omega
  | ⟨1, _⟩ => show win0_0.index t (1 : Fin 2) * 256 + 1 * k.val = k.val; omega

/-- `W1`'s block at every point is the whole array. -/
theorem wblk (c : Dev nD) (t : Fin cfg0.N) :
    (iblk0 V c 1 t : S256x256.Idx → EReal) = (V c main_arg2 : S256x256.Idx → EReal) := by
  obtain ⟨-, -, e2, e3, -, -⟩ := idx_facts t
  funext y
  show (V c main_arg2 : S256x256.Idx → EReal) (((cfg0.win 1).blk t).view.emb y) = _
  congr 1
  funext a; apply Fin.ext
  match a with
  | ⟨0, _⟩ => show win0_1.index t (0 : Fin 2) * 256 + 1 * (y 0).val = (y 0).val; omega
  | ⟨1, _⟩ => show win0_1.index t (1 : Fin 2) * 256 + 1 * (y 1).val = (y 1).val; omega

/-- What point `t` writes back is block `t` of the product of the two arguments as the region finds them. -/
theorem flushed_eq (c : Dev nD) (t : Fin cfg0.N) :
    (dat0 V c).flushed 2 t = ((cfg0.win 2).blk t).view.read (Elt Ideal) (mm (V c main_arg0 : S10000x256.Idx → EReal) (V c main_arg2 : S256x256.Idx → EReal)) := by
  show (cfg0.win 2).cut (grid0.coords t) ((dat0 V c).after 2 t) = _
  rw [after0_2]
  unfold out0_2
  rw [View.canon_unit_zero hz]
  simp only [View.ld_unit_zero (S := S2000x256) hz, View.ld_unit_zero (S := S256x256) hz]
  rw [pay_eq]
  obtain ⟨-, -, -, -, e4, e5⟩ := idx_facts t
  funext j
  show mm (iblk0 V c 0 t : S2000x256.Idx → EReal) (iblk0 V c 1 t : S256x256.Idx → EReal) j
    = mm (V c main_arg0 : S10000x256.Idx → EReal) (V c main_arg2 : S256x256.Idx → EReal) (((cfg0.win 2).blk t).view.emb j)
  rw [wblk]
  refine mm_rows _ _ _ (rowOf t) (xblk V c t) j _ ?_ ?_
  · show win0_2.index t (0 : Fin 2) * 2000 + 1 * (j 0).val = t.val * 2000 + (j 0).val; omega
  · show win0_2.index t (1 : Fin 2) * 256 + 1 * (j 1).val = (j 1).val; omega

/-- An index is in point `t`'s block iff each coordinate is in the block's range on its axis. -/
theorem mem_blk (t : Fin cfg0.N) (i : S10000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v0).slice (win0_2.rect t)).set ↔ _
  rw [View.set_slice_whole, Rect.mem_set_unit]
  exact Iff.rfl

/-- The five row blocks tile the array: row `r` is in the block of point `r / 2000`. -/
theorem cover (i : S10000x256.Idx) : ∃ t : Fin cfg0.N, (cfg0.win 2).flush t = true ∧ i ∈ ((cfg0.win 2).blk t).view.set := by
  have hi0 : (i 0).val < 10000 := (i 0).isLt
  have hi1 : (i 1).val < 256 := (i 1).isLt
  have hN : cfg0.N = 5 := N_0
  obtain ⟨-, -, -, -, e4, e5⟩ := idx_facts ⟨(i 0).val / 2000, by omega⟩
  refine ⟨⟨(i 0).val / 2000, by omega⟩, flush0_2 _, ?_⟩
  rw [mem_blk]
  intro a
  match a with
  | ⟨0, _⟩ =>
    show win0_2.index ⟨(i 0).val / 2000, _⟩ (0 : Fin 2) * 2000 ≤ (i 0).val ∧ (i 0).val < win0_2.index ⟨(i 0).val / 2000, _⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, _⟩ (1 : Fin 2) * 256 ≤ (i 1).val ∧ (i 1).val < win0_2.index ⟨(i 0).val / 2000, _⟩ (1 : Fin 2) * 256 + 256
    rw [e5]; omega

/-- THE ARRAY after region 0: the product of `x` and `W1` as the region finds them. -/
theorem arr (c : Dev nD) :
    (dat0 V c).arrAt 2 cfg0.N = mm (V c main_arg0 : S10000x256.Idx → EReal) (V c main_arg2 : S256x256.Idx → EReal) :=
  (dat0 V c).arrAt_eq_of_cover 2 _ (fun t _ => flushed_eq V c t) cover

end Cert.KernelIdeal.Region0

end
-- ==== Proof.LibRelu.lean ====
/-
  The rectifier as both programs spell it, at the ideal instance: the larger of an entry and a zero that is
  either a scalar splat over the vector (a kernel's `vector.broadcast` of `0.0`) or a rank-0 constant broadcast
  in dimensions (the host's `broadcast_in_dim` of `0.0`). The zero word denotes the real number zero, so both are
  `PlainMatmul.relu`: entry by entry the maximum with zero.
-/
import proofs.«181876_g15195594293516_cont_week2b_250_2_alg».proof.Proof.LibPlainMatmul
import Idealize.ShloMosaic.Lib.KernelVsHost

noncomputable section

namespace PlainMatmul

open Idealize.ShloMosaic Idealize.ShloMosaic.ValueIdx

/-- The maximum with a splat of the zero word is the rectifier. -/
theorem maximumf_splat_zero {s : Shape} (a : FVec Ideal s .f32) :
    maximumf a (broadcast s (Scalar.ofBits (F := Ideal) .f32 0x00000000#32)) = relu a := by
  funext i
  show max (a i) (Ideal.ofBits .f32 0x00000000#32) = max (a i) 0
  rw [Ideal.ofBits_zero_f32]

/-- The maximum with the host's broadcast of the zero constant is the rectifier. -/
theorem maximumf_broadcastInDim_zero {s t : Shape} (dims : Fin s.rank → Fin t.rank) (h : s.BroadcastsInDim t dims)
    (a : FVec Ideal t .f32) :
    maximumf a (broadcastInDim t dims h (constant (F := Ideal) s .f32 0x00000000#32)) = relu a := by
  rw [broadcastInDim_constant]
  exact maximumf_splat_zero a

end PlainMatmul

end
-- ==== Proof.Region1.lean ====
/-
  Region 1 (the first aggregation, the rectifier and the second feature transform, fused): what the array
  `main_v1` holds after the region, for any contents `V` the region is entered from. Each of the 25 grid points takes
  400 rows of the adjacency (all 10000 columns), multiplies them by the whole of `main_v0`, takes the larger of
  each entry and zero, multiplies the 400 rows so obtained by the whole of `W2` and writes the 400 rows of the
  result. Every step acts row by row, so the point's result is the point's 400 rows of
  `relu (adjacency · main_v0) · W2`; the 25 row blocks tile the 10000 rows.
-/
import proofs.«181876_g15195594293516_cont_week2b_250_2_alg».proof.Proof.Gen.KernelIdeal.Frame
import proofs.«181876_g15195594293516_cont_week2b_250_2_alg».proof.Proof.LibRelu
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx PlainMatmul

variable (V : (c : Dev nD) → (b : Ref sig .tc) → Buf (Elt Ideal) ((c : Thread nD τ).loc b))

theorem hz : (![0, 0] : Fin 2 → Nat) = fun _ => 0 := funext fun a => by fin_cases a <;> rfl

/-- The body's stored value: the product with `W2` of the rectified product of the adjacency block and `main_v0`
    (the changes of format are the identity on the extended reals, the cast to the same shape is the identity,
    the accumulators are zero). -/
theorem pay_eq (v0 : Vec Ideal S400x10000 .f32) (v2 : Vec Ideal S10000x256 .bf16) (v7 : Vec Ideal S256x256 .f32) :
    k1_pay1 (F := Ideal) v0 v2 v7 = mm (relu (mm v0 v2)) v7 := by
  have hA : IsPlain dot_S400x10000_S10000x256_S400x256_1_0_0_1_n_n := ⟨rfl, rfl, rfl, rfl, rfl, rfl⟩
  have hB : IsPlain dot_S400x256_S256x256_S400x256_1_0_0_1_n_n := ⟨rfl, rfl, rfl, rfl, rfl, rfl⟩
  unfold k1_pay1
  dsimp only
  rw [shapeCast_self]
  have e1 : matmul dot_S400x10000_S10000x256_S400x256_1_0_0_1_n_n none (truncf .bf16 v0 bitsLt_bf16_f32) v2
      (constant (F := Ideal) S400x256 .f32 0x00000000#32) = mm v0 v2 :=
    hA.matmul_zero (φ₁ := .bf16) (φ₂ := .bf16) none _ v2
  have e2 : maximumf (F := Ideal) (s := S400x256) (φ := .f32) (mm v0 v2)
      (broadcast S400x256 (FloatOps.ofBits (F := Ideal) .f32 0x00000000#32)) = relu (mm v0 v2) :=
    maximumf_splat_zero (s := S400x256) (mm v0 v2)
  rw [e1, e2]
  exact hB.matmul_zero (φ₁ := .f32) (φ₂ := .f32) (some .fp32) _ v7

/-- The printed index maps over the 25 points: the adjacency's and the result's row block is the point, everything else block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of point `t`'s block is row `400 t + p` of the array. -/
def rowOf (t : Fin cfg1.N) (p : Fin 400) : Fin 10000 :=
  ⟨t.val * 400 + p.val, by have h1 := t.isLt; have h2 : cfg1.N = 25 := N_1; have h3 := p.isLt; omega⟩

/-- The adjacency's block at point `t` is its rows `400 t …`, all columns. -/
theorem ablk (c : Dev nD) (t : Fin cfg1.N) (p : Fin 400) (k : Fin 10000) :
    (iblk1 V c 0 t : S400x10000.Idx → EReal) (ix2 p k) = (V c main_arg1 : S10000x10000.Idx → EReal) (ix2 (rowOf t p) k) := by
  obtain ⟨e0, e1, -, -, -, -, -, -⟩ := idx_facts t
  show (V c main_arg1 : S10000x10000.Idx → EReal) (((cfg1.win 0).blk t).view.emb (ix2 p k)) = _
  congr 1
  funext a; apply Fin.ext
  match a with
  | ⟨0, _⟩ => show win1_0.index t (0 : Fin 2) * 400 + 1 * p.val = t.val * 400 + p.val; omega
  | ⟨1, _⟩ => show win1_0.index t (1 : Fin 2) * 10000 + 1 * k.val = k.val; omega

/-- `main_v0`'s block at every point is the whole array. -/
theorem sblk (c : Dev nD) (t : Fin cfg1.N) :
    (iblk1 V c 1 t : S10000x256.Idx → EReal) = (V c main_v0 : S10000x256.Idx → EReal) := by
  obtain ⟨-, -, e2, e3, -, -, -, -⟩ := idx_facts t
  funext y
  show (V c main_v0 : S10000x256.Idx → EReal) (((cfg1.win 1).blk t).view.emb y) = _
  congr 1
  funext a; apply Fin.ext
  match a with
  | ⟨0, _⟩ => show win1_1.index t (0 : Fin 2) * 10000 + 1 * (y 0).val = (y 0).val; omega
  | ⟨1, _⟩ => show win1_1.index t (1 : Fin 2) * 256 + 1 * (y 1).val = (y 1).val; omega

/-- `W2`'s block at every point is the whole array. -/
theorem wblk (c : Dev nD) (t : Fin cfg1.N) :
    (iblk1 V c 2 t : S256x256.Idx → EReal) = (V c main_arg3 : S256x256.Idx → EReal) := by
  obtain ⟨-, -, -, -, e4, e5, -, -⟩ := idx_facts t
  funext y
  show (V c main_arg3 : S256x256.Idx → EReal) (((cfg1.win 2).blk t).view.emb y) = _
  congr 1
  funext a; apply Fin.ext
  match a with
  | ⟨0, _⟩ => show win1_2.index t (0 : Fin 2) * 256 + 1 * (y 0).val = (y 0).val; omega
  | ⟨1, _⟩ => show win1_2.index t (1 : Fin 2) * 256 + 1 * (y 1).val = (y 1).val; omega

/-- The rectified aggregation of the point's adjacency rows is the point's rows of the rectified aggregation. -/
theorem hidden_rows (c : Dev nD) (t : Fin cfg1.N) (p : Fin 400) (k : Fin 256) :
    relu (mm (iblk1 V c 0 t : S400x10000.Idx → EReal) (V c main_v0 : S10000x256.Idx → EReal)) (ix2 p k)
      = relu (mm (V c main_arg1 : S10000x10000.Idx → EReal) (V c main_v0 : S10000x256.Idx → EReal)) (ix2 (rowOf t p) k) := by
  unfold relu
  exact congrArg (max · 0) (mm_rows _ _ _ (rowOf t) (ablk V c t) (ix2 p k) (ix2 (rowOf t p) k) rfl rfl)

/-- What point `t` writes back is block `t` of `relu (adjacency · main_v0) · W2` of the arrays as the region finds them. -/
theorem flushed_eq (c : Dev nD) (t : Fin cfg1.N) :
    (dat1 V c).flushed 3 t = ((cfg1.win 3).blk t).view.read (Elt Ideal)
      (mm (relu (mm (V c main_arg1 : S10000x10000.Idx → EReal) (V c main_v0 : S10000x256.Idx → EReal))) (V c main_arg3 : S256x256.Idx → EReal)) := by
  show (cfg1.win 3).cut (grid1.coords t) ((dat1 V c).after 3 t) = _
  rw [after1_3]
  unfold out1_3
  rw [View.canon_unit_zero hz]
  simp only [View.ld_unit_zero (S := S400x10000) hz, View.ld_unit_zero (S := S10000x256) hz, View.ld_unit_zero (S := S256x256) hz]
  rw [pay_eq]
  obtain ⟨-, -, -, -, -, -, e6, e7⟩ := idx_facts t
  funext j
  show mm (relu (mm (iblk1 V c 0 t : S400x10000.Idx → EReal) (iblk1 V c 1 t : S10000x256.Idx → EReal))) (iblk1 V c 2 t : S256x256.Idx → EReal) j
    = mm (relu (mm (V c main_arg1 : S10000x10000.Idx → EReal) (V c main_v0 : S10000x256.Idx → EReal))) (V c main_arg3 : S256x256.Idx → EReal) (((cfg1.win 3).blk t).view.emb j)
  rw [sblk, wblk]
  refine mm_rows _ _ _ (rowOf t) (hidden_rows V c t) j _ ?_ ?_
  · show win1_3.index t (0 : Fin 2) * 400 + 1 * (j 0).val = t.val * 400 + (j 0).val; omega
  · show win1_3.index t (1 : Fin 2) * 256 + 1 * (j 1).val = (j 1).val; omega

/-- An index is in point `t`'s block iff each coordinate is in the block's range on its axis. -/
theorem mem_blk (t : Fin cfg1.N) (i : S10000x256.Idx) :
    i ∈ ((cfg1.win 3).blk t).view.set ↔ ∀ a : Fin 2, win1_3.index t a * S400x256.size a ≤ (i a).val ∧ (i a).val < win1_3.index t a * S400x256.size a + S400x256.size a := by
  show i ∈ ((View.whole main_v1).slice (win1_3.rect t)).set ↔ _
  rw [View.set_slice_whole, Rect.mem_set_unit]
  exact Iff.rfl

/-- The 25 row blocks tile the array: row `r` is in the block of point `r / 400`. -/
theorem cover (i : S10000x256.Idx) : ∃ t : Fin cfg1.N, (cfg1.win 3).flush t = true ∧ i ∈ ((cfg1.win 3).blk t).view.set := by
  have hi0 : (i 0).val < 10000 := (i 0).isLt
  have hi1 : (i 1).val < 256 := (i 1).isLt
  have hN : cfg1.N = 25 := N_1
  obtain ⟨-, -, -, -, -, -, e6, e7⟩ := idx_facts ⟨(i 0).val / 400, by omega⟩
  refine ⟨⟨(i 0).val / 400, by omega⟩, flush1_3 _, ?_⟩
  rw [mem_blk]
  intro a
  match a with
  | ⟨0, _⟩ =>
    show win1_3.index ⟨(i 0).val / 400, _⟩ (0 : Fin 2) * 400 ≤ (i 0).val ∧ (i 0).val < win1_3.index ⟨(i 0).val / 400, _⟩ (0 : Fin 2) * 400 + 400
    rw [e6]; show (i 0).val / 400 * 400 ≤ (i 0).val ∧ (i 0).val < (i 0).val / 400 * 400 + 400; omega
  | ⟨1, _⟩ =>
    show win1_3.index ⟨(i 0).val / 400, _⟩ (1 : Fin 2) * 256 ≤ (i 1).val ∧ (i 1).val < win1_3.index ⟨(i 0).val / 400, _⟩ (1 : Fin 2) * 256 + 256
    rw [e7]; omega

/-- THE ARRAY after region 1: `relu (adjacency · main_v0) · W2` of the arrays as the region finds them. -/
theorem arr (c : Dev nD) :
    (dat1 V c).arrAt 3 cfg1.N
      = mm (relu (mm (V c main_arg1 : S10000x10000.Idx → EReal) (V c main_v0 : S10000x256.Idx → EReal))) (V c main_arg3 : S256x256.Idx → EReal) :=
  (dat1 V c).arrAt_eq_of_cover 3 _ (fun t _ => flushed_eq V c t) cover

end Cert.KernelIdeal.Region1

end
-- ==== Proof.Region2.lean ====
/-
  Region 2 (the second aggregation): what the array `main_v2` holds after the region, for any contents `V` the
  region is entered from. Each of the 25 grid points takes 400 rows of the adjacency (all 10000 columns),
  multiplies them by the whole of `main_v1` and writes the 400 rows of the result; the 25 row blocks tile the
  10000 rows, so the array ends holding the matrix product of the adjacency and `main_v1`.
-/
import proofs.«181876_g15195594293516_cont_week2b_250_2_alg».proof.Proof.Gen.KernelIdeal.Frame
import proofs.«181876_g15195594293516_cont_week2b_250_2_alg».proof.Proof.LibRelu
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.SL.Sem
open Idealize.ShloMosaic.Pipeline (Dat)
open Idealize.ShloMosaic.ValueIdx PlainMatmul

variable (V : (c : Dev nD) → (b : Ref sig .tc) → Buf (Elt Ideal) ((c : Thread nD τ).loc b))

theorem hz : (![0, 0] : Fin 2 → Nat) = fun _ => 0 := funext fun a => by fin_cases a <;> rfl

/-- The body's stored value is the product of its two loaded blocks (the change of format is the identity on the
    extended reals, the cast to the same shape is the identity, and the accumulator is zero). -/
theorem pay_eq (v0 : Vec Ideal S400x10000 .f32) (v2 : Vec Ideal S10000x256 .bf16) :
    k2_pay1 (F := Ideal) v0 v2 = mm v0 v2 := by
  have hd : IsPlain dot_S400x10000_S10000x256_S400x256_1_0_0_1_n_n := ⟨rfl, rfl, rfl, rfl, rfl, rfl⟩
  unfold k2_pay1
  dsimp only
  rw [shapeCast_self]
  exact hd.matmul_zero (φ₁ := .bf16) (φ₂ := .bf16) none _ v2

/-- The printed index maps over the 25 points: the adjacency's and the result's row block is the point, everything else block 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `p` of point `t`'s block is row `400 t + p` of the array. -/
def rowOf (t : Fin cfg2.N) (p : Fin 400) : Fin 10000 :=
  ⟨t.val * 400 + p.val, by have h1 := t.isLt; have h2 : cfg2.N = 25 := N_2; have h3 := p.isLt; omega⟩

/-- The adjacency's block at point `t` is its rows `400 t …`, all columns. -/
theorem ablk (c : Dev nD) (t : Fin cfg2.N) (p : Fin 400) (k : Fin 10000) :
    (iblk2 V c 0 t : S400x10000.Idx → EReal) (ix2 p k) = (V c main_arg1 : S10000x10000.Idx → EReal) (ix2 (rowOf t p) k) := by
  obtain ⟨e0, e1, -, -, -, -⟩ := idx_facts t
  show (V c main_arg1 : S10000x10000.Idx → EReal) (((cfg2.win 0).blk t).view.emb (ix2 p k)) = _
  congr 1
  funext a; apply Fin.ext
  match a with
  | ⟨0, _⟩ => show win2_0.index t (0 : Fin 2) * 400 + 1 * p.val = t.val * 400 + p.val; omega
  | ⟨1, _⟩ => show win2_0.index t (1 : Fin 2) * 10000 + 1 * k.val = k.val; omega

/-- `main_v1`'s block at every point is the whole array. -/
theorem sblk (c : Dev nD) (t : Fin cfg2.N) :
    (iblk2 V c 1 t : S10000x256.Idx → EReal) = (V c main_v1 : S10000x256.Idx → EReal) := by
  obtain ⟨-, -, e2, e3, -, -⟩ := idx_facts t
  funext y
  show (V c main_v1 : S10000x256.Idx → EReal) (((cfg2.win 1).blk t).view.emb y) = _
  congr 1
  funext a; apply Fin.ext
  match a with
  | ⟨0, _⟩ => show win2_1.index t (0 : Fin 2) * 10000 + 1 * (y 0).val = (y 0).val; omega
  | ⟨1, _⟩ => show win2_1.index t (1 : Fin 2) * 256 + 1 * (y 1).val = (y 1).val; omega

/-- What point `t` writes back is block `t` of the product of the adjacency and `main_v1` as the region finds them. -/
theorem flushed_eq (c : Dev nD) (t : Fin cfg2.N) :
    (dat2 V c).flushed 2 t = ((cfg2.win 2).blk t).view.read (Elt Ideal) (mm (V c main_arg1 : S10000x10000.Idx → EReal) (V c main_v1 : S10000x256.Idx → EReal)) := by
  show (cfg2.win 2).cut (grid2.coords t) ((dat2 V c).after 2 t) = _
  rw [after2_2]
  unfold out2_2
  rw [View.canon_unit_zero hz]
  simp only [View.ld_unit_zero (S := S400x10000) hz, View.ld_unit_zero (S := S10000x256) hz]
  rw [pay_eq]
  obtain ⟨-, -, -, -, e4, e5⟩ := idx_facts t
  funext j
  show mm (iblk2 V c 0 t : S400x10000.Idx → EReal) (iblk2 V c 1 t : S10000x256.Idx → EReal) j
    = mm (V c main_arg1 : S10000x10000.Idx → EReal) (V c main_v1 : S10000x256.Idx → EReal) (((cfg2.win 2).blk t).view.emb j)
  rw [sblk]
  refine mm_rows _ _ _ (rowOf t) (ablk V c t) j _ ?_ ?_
  · show win2_2.index t (0 : Fin 2) * 400 + 1 * (j 0).val = t.val * 400 + (j 0).val; omega
  · show win2_2.index t (1 : Fin 2) * 256 + 1 * (j 1).val = (j 1).val; omega

/-- An index is in point `t`'s block iff each coordinate is in the block's range on its axis. -/
theorem mem_blk (t : Fin cfg2.N) (i : S10000x256.Idx) :
    i ∈ ((cfg2.win 2).blk t).view.set ↔ ∀ a : Fin 2, win2_2.index t a * S400x256.size a ≤ (i a).val ∧ (i a).val < win2_2.index t a * S400x256.size a + S400x256.size a := by
  show i ∈ ((View.whole main_v2).slice (win2_2.rect t)).set ↔ _
  rw [View.set_slice_whole, Rect.mem_set_unit]
  exact Iff.rfl

/-- The 25 row blocks tile the array: row `r` is in the block of point `r / 400`. -/
theorem cover (i : S10000x256.Idx) : ∃ t : Fin cfg2.N, (cfg2.win 2).flush t = true ∧ i ∈ ((cfg2.win 2).blk t).view.set := by
  have hi0 : (i 0).val < 10000 := (i 0).isLt
  have hi1 : (i 1).val < 256 := (i 1).isLt
  have hN : cfg2.N = 25 := N_2
  obtain ⟨-, -, -, -, e4, e5⟩ := idx_facts ⟨(i 0).val / 400, by omega⟩
  refine ⟨⟨(i 0).val / 400, by omega⟩, flush2_2 _, ?_⟩
  rw [mem_blk]
  intro a
  match a with
  | ⟨0, _⟩ =>
    show win2_2.index ⟨(i 0).val / 400, _⟩ (0 : Fin 2) * 400 ≤ (i 0).val ∧ (i 0).val < win2_2.index ⟨(i 0).val / 400, _⟩ (0 : Fin 2) * 400 + 400
    rw [e4]; show (i 0).val / 400 * 400 ≤ (i 0).val ∧ (i 0).val < (i 0).val / 400 * 400 + 400; omega
  | ⟨1, _⟩ =>
    show win2_2.index ⟨(i 0).val / 400, _⟩ (1 : Fin 2) * 256 ≤ (i 1).val ∧ (i 1).val < win2_2.index ⟨(i 0).val / 400, _⟩ (1 : Fin 2) * 256 + 256
    rw [e5]; omega

/-- THE ARRAY after region 2: the product of the adjacency and `main_v1` as the region finds them. -/
theorem arr (c : Dev nD) :
    (dat2 V c).arrAt 2 cfg2.N = mm (V c main_arg1 : S10000x10000.Idx → EReal) (V c main_v1 : S10000x256.Idx → EReal) :=
  (dat2 V c).arrAt_eq_of_cover 2 _ (fun t _ => flushed_eq V c t) cover

end Cert.KernelIdeal.Region2

end
-- ==== Proof.Spec.lean ====
/-
  The function both programs compute, over the extended reals: a two-layer graph convolution with a dense
  adjacency. With `·` the matrix product (`PlainMatmul.mm`) and `relu` the entrywise maximum with zero,

      logits x a w1 w2 = a · (relu (a · (x · w1)) · w2).

  Both programs group the products exactly so, so no algebraic law (and no finiteness of the inputs) is needed
  to join them: each side is shown to be this one term.
-/
import proofs.«181876_g15195594293516_cont_week2b_250_2_alg».proof.Proof.LibRelu

noncomputable section

namespace Gcn

open Idealize.ShloMosaic PlainMatmul

/-- `a · (relu (a · (x · w1)) · w2)` for `x` of 10000 rows and 256 features, a 10000 × 10000 adjacency `a` and two
    256 × 256 weight matrices. -/
def logits (x : (⟨2, ![10000, 256]⟩ : Shape).Idx → EReal) (a : (⟨2, ![10000, 10000]⟩ : Shape).Idx → EReal)
    (w1 w2 : (⟨2, ![256, 256]⟩ : Shape).Idx → EReal) : (⟨2, ![10000, 256]⟩ : Shape).Idx → EReal :=
  mm a (mm (relu (mm a (mm x w1))) w2)

end Gcn

end
-- ==== Proof.KernelValue.lean ====
/-
  The kernel's result as one function of its arguments. The program is three regions in a row; the buffer
  contents at the boundaries are a fold: region 0 leaves `x · W1` in `main_v0` and touches nothing else, region 1
  reads the adjacency, `main_v0` and `W2` as region 0 left them and leaves `relu (a · main_v0) · W2` in `main_v1`,
  region 2 reads the adjacency and `main_v1` and leaves their product in `main_v2`. Reading each boundary's
  contents back through the fold — an argument array is never written, an intermediate is written by exactly
  one region — gives `main_v2 = a · (relu (a · (x · W1)) · W2)` of the launch contents.
-/
import proofs.«181876_g15195594293516_cont_week2b_250_2_alg».proof.Proof.KernelRun
import proofs.«181876_g15195594293516_cont_week2b_250_2_alg».proof.Proof.Region0
import proofs.«181876_g15195594293516_cont_week2b_250_2_alg».proof.Proof.Region1
import proofs.«181876_g15195594293516_cont_week2b_250_2_alg».proof.Proof.Region2
import proofs.«181876_g15195594293516_cont_week2b_250_2_alg».proof.Proof.Spec

set_option maxRecDepth 16384

noncomputable section

namespace Cert.KernelIdeal.KValue

open Cert.KernelIdeal Cert.KernelIdeal.Gen Idealize.ShloMosaic Idealize.ShloMosaic.TcCoe Idealize.SL.Sem
open Idealize.ShloMosaic.Pipeline (Dat)
open PlainMatmul

variable (m : (ℓ : Loc nD τ sig) → Buf (Elt Ideal) ℓ) (ρ : Dev nD → PrngReg)

/-- The launch contents of the four arguments, typed by their literal shapes. -/
abbrev X (c : Dev nD) : S10000x256.Idx → EReal := m ((c : Thread nD τ).loc main_arg0)
abbrev A (c : Dev nD) : S10000x10000.Idx → EReal := m ((c : Thread nD τ).loc main_arg1)
abbrev W1m (c : Dev nD) : S256x256.Idx → EReal := m ((c : Thread nD τ).loc main_arg2)
abbrev W2m (c : Dev nD) : S256x256.Idx → EReal := m ((c : Thread nD τ).loc main_arg3)

/-! ## Region 1's entry: the arguments as launched, `main_v0` at `x · W1` -/

theorem v1_arg1 (c : Dev nD) : (V1 m ρ c main_arg1 : S10000x10000.Idx → EReal) = A m c :=
  W1_of_ne m ρ c main_arg1 (by decide)
theorem v1_arg3 (c : Dev nD) : (V1 m ρ c main_arg3 : S256x256.Idx → EReal) = W2m m c :=
  W1_of_ne m ρ c main_arg3 (by decide)
theorem v1_v0 (c : Dev nD) : (V1 m ρ c main_v0 : S10000x256.Idx → EReal) = mm (X m c) (W1m m c) :=
  (W1_arr m ρ c 2).trans (Region0.arr (V0 m ρ) c)

/-! ## Region 2's entry: the adjacency as launched, `main_v1` at `relu (a · (x · W1)) · W2` -/

theorem v2_arg1 (c : Dev nD) : (V2 m ρ c main_arg1 : S10000x10000.Idx → EReal) = A m c :=
  ((W2_arr m ρ c 0).trans (((dat1 (V1 m ρ) c).arrAt_in 0 rfl _).trans (A_eq1 (V1 m ρ) c 0))).trans (v1_arg1 m ρ c)
theorem v2_v1 (c : Dev nD) :
    (V2 m ρ c main_v1 : S10000x256.Idx → EReal) = mm (relu (mm (A m c) (mm (X m c) (W1m m c)))) (W2m m c) := by
  refine (W2_arr m ρ c 3).trans ((Region1.arr (V1 m ρ) c).trans ?_)
  rw [v1_arg1, v1_v0, v1_arg3]

/-! ## The last boundary: `main_v2` at the whole function -/

theorem w3_v2 (c : Dev nD) :
    (W3 m ρ c (Proc.devRef .tc main_v2) : S10000x256.Idx → EReal) = Gcn.logits (X m c) (A m c) (W1m m c) (W2m m c) := by
  refine (W3_arr m ρ c 2).trans ((Region2.arr (V2 m ρ) c).trans ?_)
  rw [v2_arg1, v2_v1]
  rfl

/-- THE RUN: every weakly fair execution terminates with `main_v2` at `logits` of the launch contents of the
    arguments, and the arguments unchanged. -/
theorem run : θ_run defs (onTc (τ := τ) (main (F := Ideal))) ⟨m, fun _ => 0, ρ⟩ (fun r => ∀ c : Dev nD,
      r.2.mem ((c.tc : Thread nD τ).loc main_v2) = Gcn.logits (X m c) (A m c) (W1m m c) (W2m m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (w3_v2 m ρ c), (h c).2⟩) (run_main m ρ)

end Cert.KernelIdeal.KValue

end
-- ==== Proof.Reference.lean ====
/-
  The reference's result as the same function of its arguments. Its run ends with the result at the composed
  term of its seven host operations: four `dot_general`s with the dimension numbers of an ordinary matrix
  product, and between them the maximum with a broadcast zero. At the exact values each `dot_general` is the
  matrix product and the maximum with zero is the rectifier, so the term is `a · (relu (a · (x · W1)) · W2)`.
-/
import proofs.«181876_g15195594293516_cont_week2b_250_2_alg».proof.Proof.Gen.ReferenceIdeal.Run
import proofs.«181876_g15195594293516_cont_week2b_250_2_alg».proof.Proof.Spec

noncomputable section

namespace Cert.ReferenceIdeal.RefValue

open Cert.ReferenceIdeal Cert.ReferenceIdeal.Gen Idealize.ShloMosaic Idealize.ShloMosaic.TcCoe Idealize.SL.Sem
open PlainMatmul

theorem result_eq (x0 : FVec Ideal S10000x256 .f32) (x1 : FVec Ideal S10000x10000 .f32) (x2 x3 : FVec Ideal S256x256 .f32) :
    Host.dotGeneral dot_S10000x10000_S10000x256_S10000x256_1_0_0_1_n_n none x1
      (Host.dotGeneral dot_S10000x256_S256x256_S10000x256_1_0_0_1_n_n none
        (maximumf (Host.dotGeneral dot_S10000x10000_S10000x256_S10000x256_1_0_0_1_n_n none x1
            (Host.dotGeneral dot_S10000x256_S256x256_S10000x256_1_0_0_1_n_n none x0 x2))
          (broadcastInDim S10000x256 ![] bcast_S_S10000x256 (constant S_ .f32 0x00000000#32))) x3)
      = Gcn.logits x0 x1 x2 x3 := by
  have hA : IsPlain dot_S10000x256_S256x256_S10000x256_1_0_0_1_n_n := ⟨rfl, rfl, rfl, rfl, rfl, rfl⟩
  have hB : IsPlain dot_S10000x10000_S10000x256_S10000x256_1_0_0_1_n_n := ⟨rfl, rfl, rfl, rfl, rfl, rfl⟩
  simp only [Host.dotGeneral]
  rw [hA.dotGeneral (φ₁ := .f32) (φ₂ := .f32) none _ x0 x2, hB.dotGeneral (φ₁ := .f32) (φ₂ := .f32) none _ x1 _,
    maximumf_broadcastInDim_zero, hA.dotGeneral (φ₁ := .f32) (φ₂ := .f32) none _ _ x3,
    hB.dotGeneral (φ₁ := .f32) (φ₂ := .f32) none _ x1 _]
  rfl

end Cert.ReferenceIdeal.RefValue

end
-- ==== Proof.lean ====
/-
  A two-layer graph convolution with a dense adjacency, `logits = a · (relu (a · (x · W1)) · W2)`, computed by three
  pipelined kernels in a row — the feature transform `x · W1` in row blocks of 2000; the aggregation, the rectifier
  and the second transform fused, in row blocks of 400 of the adjacency; the last aggregation, again in row blocks
  of 400 — against the same four matrix products and one rectifier written on the host.

  Over the extended reals a change of float format is the identity and a matrix-unit product into a zero
  accumulator is the plain sum of products, so each kernel writes, block of rows by block of rows, the rows of a
  matrix product of whole arrays (a product of a block of rows is that block of rows of the product), and the row
  blocks tile the array. The three regions' results are threaded through the buffer contents at the region
  boundaries. The reference's `dot_general`s are the same sums. Both sides are literally
  `a · (relu (a · (x · W1)) · W2)` with the same grouping, so no algebraic law and no finiteness of the inputs is
  used: the precondition is never opened.

  The three frames are the generated ones (the reference's is its generated run with the result dropped), and
  the idealization rewrote nothing, so it is preserved trivially.
-/
import proofs.«181876_g15195594293516_cont_week2b_250_2_alg».proof.Defs
import proofs.«181876_g15195594293516_cont_week2b_250_2_alg».proof.Proof.Gen.Kernel
import proofs.«181876_g15195594293516_cont_week2b_250_2_alg».proof.Proof.Gen.Kernel.Skeleton
import proofs.«181876_g15195594293516_cont_week2b_250_2_alg».proof.Proof.Gen.Kernel.Launch
import proofs.«181876_g15195594293516_cont_week2b_250_2_alg».proof.Proof.Gen.Kernel.Points
import proofs.«181876_g15195594293516_cont_week2b_250_2_alg».proof.Proof.Gen.Kernel.Frame
import proofs.«181876_g15195594293516_cont_week2b_250_2_alg».proof.Proof.Gen.KernelIdeal
import proofs.«181876_g15195594293516_cont_week2b_250_2_alg».proof.Proof.Gen.KernelIdeal.Skeleton
import proofs.«181876_g15195594293516_cont_week2b_250_2_alg».proof.Proof.Gen.KernelIdeal.Launch
import proofs.«181876_g15195594293516_cont_week2b_250_2_alg».proof.Proof.Gen.KernelIdeal.Points
import proofs.«181876_g15195594293516_cont_week2b_250_2_alg».proof.Proof.Gen.KernelIdeal.Frame
import proofs.«181876_g15195594293516_cont_week2b_250_2_alg».proof.Proof.Gen.ReferenceIdeal
import proofs.«181876_g15195594293516_cont_week2b_250_2_alg».proof.Proof.Gen.ReferenceIdeal.Run
import proofs.«181876_g15195594293516_cont_week2b_250_2_alg».proof.Proof.Gen.Pre_finite_inputs
import proofs.«181876_g15195594293516_cont_week2b_250_2_alg».proof.Proof.KernelValue
import proofs.«181876_g15195594293516_cont_week2b_250_2_alg».proof.Proof.Reference
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Gen.frame m ρ

/-- So does the kernel read at the exact values. -/
theorem frame_ki : Cert.frame_KernelIdeal := fun m ρ _ => Cert.KernelIdeal.Gen.frame m ρ

/-- The reference's run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the four arguments, the kernel's result array and the reference's both end at
    `a · (relu (a · (x · W1)) · W2)` of those arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact Cert.ReferenceIdeal.RefValue.result_eq _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
